-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1000000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S10000x64 : Shape := ⟨2, ![10000, 64]⟩
abbrev S1100000x64 : Shape := ⟨2, ![1100000, 64]⟩
abbrev S1x64 : Shape := ⟨2, ![1, 64]⟩

abbrev nBuf : Space → Nat
  | .hbm => 63
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1000000, .i32⟩
  | .hbm, ⟨6, _⟩ => ⟨S1000000, .i32⟩
  | .hbm, ⟨7, _⟩ => ⟨S1100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1100000, .i32⟩
  | .hbm, ⟨27, _⟩ => ⟨S1100000, .i1⟩
  | .hbm, ⟨28, _⟩ => ⟨S_, .i32⟩
  | .hbm, ⟨29, _⟩ => ⟨S1100000, .i32⟩
  | .hbm, ⟨30, _⟩ => ⟨S1100000, .i32⟩
  | .hbm, ⟨31, _⟩ => ⟨S1100000, .i32⟩
  | .hbm, ⟨32, _⟩ => ⟨S1100000x1, .i32⟩
  | .hbm, ⟨33, _⟩ => ⟨S1100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S100000x64, .f32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S1100000x1, .f32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S1x64, .f32⟩
  | .hbm, ⟨62, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x64_S64x64_S10000x64_1_0_0_1_n_n_wf : DotDims.WF S10000x64 S64x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x64 : Shape := ⟨2, ![1100000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S100000, .i32⟩
  | .hbm, ⟨5, _⟩ => ⟨S1x1000000, .i32⟩
  | .hbm, ⟨6, _⟩ => ⟨S1000000, .i32⟩
  | .hbm, ⟨7, _⟩ => ⟨S1100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S100000, .f32⟩
  | .hbm, ⟨15, _⟩ => ⟨S1100000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1100000, .i32⟩
  | .hbm, ⟨27, _⟩ => ⟨S1100000, .i1⟩
  | .hbm, ⟨28, _⟩ => ⟨S_, .i32⟩
  | .hbm, ⟨29, _⟩ => ⟨S1100000, .i32⟩
  | .hbm, ⟨30, _⟩ => ⟨S1100000, .i32⟩
  | .hbm, ⟨31, _⟩ => ⟨S1100000, .i32⟩
  | .hbm, ⟨32, _⟩ => ⟨S1100000x1, .i32⟩
  | .hbm, ⟨33, _⟩ => ⟨S1100000, .f32⟩
  | .hbm, ⟨34, _⟩ => ⟨S_, .i32⟩
  | .hbm, ⟨35, _⟩ => ⟨S1100000, .i32⟩
  | .hbm, ⟨36, _⟩ => ⟨S1100000, .i1⟩
  | .hbm, ⟨37, _⟩ => ⟨S_, .i32⟩
  | .hbm, ⟨38, _⟩ => ⟨S1100000, .i32⟩
  | .hbm, ⟨39, _⟩ => ⟨S1100000, .i32⟩
  | .hbm, ⟨40, _⟩ => ⟨S1100000, .i32⟩
  | .hbm, ⟨41, _⟩ => ⟨S1100000x1, .i32⟩
  | .hbm, ⟨42, _⟩ => ⟨S1100000, .f32⟩
  | .hbm, ⟨43, _⟩ => ⟨S1100000, .f32⟩
  | .hbm, ⟨44, _⟩ => ⟨S100000x64, .f32⟩
  | .hbm, ⟨45, _⟩ => ⟨S_, .i32⟩
  | .hbm, ⟨46, _⟩ => ⟨S1100000, .i32⟩
  | .hbm, ⟨47, _⟩ => ⟨S1100000, .i1⟩
  | .hbm, ⟨48, _⟩ => ⟨S_, .i32⟩
  | .hbm, ⟨49, _⟩ => ⟨S1100000, .i32⟩
  | .hbm, ⟨50, _⟩ => ⟨S1100000, .i32⟩
  | .hbm, ⟨51, _⟩ => ⟨S1100000, .i32⟩
  | .hbm, ⟨52, _⟩ => ⟨S1100000x1, .i32⟩
  | .hbm, ⟨53, _⟩ => ⟨S1100000x64, .f32⟩
  | .hbm, ⟨54, _⟩ => ⟨S1100000x1, .f32⟩
  | .hbm, ⟨55, _⟩ => ⟨S1100000x64, .f32⟩
  | .hbm, ⟨56, _⟩ => ⟨S1100000x64, .f32⟩
  | .hbm, ⟨57, _⟩ => ⟨S_, .f32⟩
  | .hbm, ⟨58, _⟩ => ⟨S100000x64, .f32⟩
  | .hbm, ⟨59, _⟩ => ⟨S1100000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x64_S64x64_S100000x64_1_0_0_1_n_n_wf : DotDims.WF S100000x64 S64x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Product.lean ====
/-
  The two dense stages of the layer: the product of the node features with the weight matrix, and the bias added to
  every row of the aggregated messages, each entry by entry.

  For features `x : [100000, 64]` and weights `w : [64, 64]` the entry `(p, q)` of the product is the sum over the
  64 contracted positions `k` of `x (p, k) · w (k, q)`, taken in the extended reals, where addition is commutative and
  associative, so the sum does not depend on an order. The host's plain contraction of the two arrays is this function.
-/
import proofs.«156363_j82300163326464_1_alg».proof.Proof.LibRowDims

noncomputable section

open scoped BigOperators

namespace Cert.Gcn

open Idealize.ShloMosaic Idealize.ShloMosaic.ValueIdx

/-- Entry `(p, q)` of the product `x · w`. -/
def prodAt (x : (⟨2, ![100000, 64]⟩ : Shape).Idx → EReal) (w : (⟨2, ![64, 64]⟩ : Shape).Idx → EReal)
    (p : Fin 100000) (q : Fin 64) : EReal :=
  ∑ k : Fin 64, x (ix2 p k) * w (ix2 k q)

/-- The product `x · w` as one array. -/
def prod (x : (⟨2, ![100000, 64]⟩ : Shape).Idx → EReal) (w : (⟨2, ![64, 64]⟩ : Shape).Idx → EReal) :
    (⟨2, ![100000, 64]⟩ : Shape).Idx → EReal :=
  fun i => prodAt x w (i 0) (i 1)

theorem prod_apply (x : (⟨2, ![100000, 64]⟩ : Shape).Idx → EReal) (w : (⟨2, ![64, 64]⟩ : Shape).Idx → EReal)
    (p : Fin 100000) (q : Fin 64) : prod x w (ix2 p q) = ∑ k : Fin 64, x (ix2 p k) * w (ix2 k q) := rfl

/-- The host's plain contraction of the two arrays, at the ideal values, is the product. -/
theorem dotGeneral_plain_eq_prod (prec : Option ContractPrecision) (sched : HostSchedule)
    (x : FVec Ideal ⟨2, ![100000, 64]⟩ .f32) (w : FVec Ideal ⟨2, ![64, 64]⟩ .f32) :
    FloatOps.dotGeneral (DotDims.plain 100000 64 64) prec sched x w = prod x w := by
  funext i
  obtain ⟨p, q, rfl⟩ : ∃ (p : Fin 100000) (q : Fin 64), i = ix2 p q := ⟨i 0, i 1, eq_ix2 i⟩
  exact RowDims.dotGeneral_plain_apply prec sched x w p q

/-- The bias row `b2 : [1, 64]` added to every row of `agg : [100000, 64]`. -/
def addBias (agg : (⟨2, ![100000, 64]⟩ : Shape).Idx → EReal) (b2 : (⟨2, ![1, 64]⟩ : Shape).Idx → EReal) :
    (⟨2, ![100000, 64]⟩ : Shape).Idx → EReal :=
  fun i => agg i + b2 (ix2 (0 : Fin 1) (i 1))

theorem addBias_apply (agg : (⟨2, ![100000, 64]⟩ : Shape).Idx → EReal) (b2 : (⟨2, ![1, 64]⟩ : Shape).Idx → EReal)
    (p : Fin 100000) (q : Fin 64) : addBias agg b2 (ix2 p q) = agg (ix2 p q) + b2 (ix2 (0 : Fin 1) q) := rfl

end Cert.Gcn

end
-- ==== Proof.Region0.lean ====
/-
  The first kernel region: the array it leaves is the product of the features with the weights.

  The region walks the 100000 rows in ten blocks of 10000. At block `t` its body loads rows
  `10000 t … 10000 t + 9999` of the features and the whole weight matrix, changes both to a narrower float format,
  which at the ideal values is the identity, multiplies them into a zero accumulator and stores the 10000 × 64
  result. So entry `(p, q)` of block `t` is the sum over the 64 contracted positions `k` of
  `x (10000 t + p, k) · w (k, q)`: block `t` of the product. The ten blocks tile the rows (row `r` lies in block
  `r / 10000`), so after the region the whole array is the product.
-/
import proofs.«156363_j82300163326464_1_alg».proof.Proof.Gen.KernelIdeal.Frame
import proofs.«156363_j82300163326464_1_alg».proof.Proof.Product
import Idealize.ShloMosaic.Lib.Pipeline.Value

set_option maxRecDepth 16384

noncomputable section

open scoped BigOperators

namespace Cert.KernelIdeal.Xw

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the region is entered from
variable (V : (c : Dev nD) → (b : Ref sig .tc) → Buf (Elt Ideal) ((c : Thread nD τ).loc b))

theorem origin_zero : (![0, 0] : Fin 2 → Nat) = fun _ => 0 := funext fun a => by fin_cases a <;> rfl

/-- The body's stored value at entry `(p, q)`: the format changes are the identity, and the matrix unit's product into
    the zero accumulator is the sum over the contracted position. -/
theorem stored_apply (x0 : Vec Ideal S10000x64 .f32) (x1 : Vec Ideal S64x64 .f32) (p : Fin 10000) (q : Fin 64) :
    k0_pay1 (F := Ideal) x0 x1 (ix2 p q) = ∑ k : Fin 64, x0 (ix2 p k) * x1 (ix2 k q) := by
  unfold k0_pay1
  exact RowDims.matmul_plain_zero_apply (M := 10000) (K := 64) (N := 64) (φ₁ := .bf16) (φ₂ := .bf16) none x0 x1 p q

/-- The block indices over the grid: the features' and the result's row block is the point, the weights' block is fixed. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := Nat.lt_of_lt_of_eq t.isLt N_0

/-- What point `t` writes back is block `t` of the product of the arrays the region finds. -/
theorem flushed_eq (c : Dev nD) (t : Fin cfg0.N) :
    (dat0 V c).flushed 2 t = ((cfg0.win 2).blk t).view.read (Elt Ideal) (Cert.Gcn.prod (V c main_arg0) (V c main_arg2)) := by
  show (cfg0.win 2).cut (grid0.coords t) ((dat0 V c).after 2 t) = _
  rw [after0_2]
  unfold out0_2
  rw [View.canon_unit_zero origin_zero]
  simp only [View.ld_unit_zero (S := S10000x64) origin_zero, View.ld_unit_zero (S := S64x64) origin_zero]
  funext j
  show k0_pay1 (F := Ideal) (iblk0 V c 0 t) (iblk0 V c 1 t) j
    = Cert.Gcn.prod (V c main_arg0) (V c main_arg2) (((cfg0.win 2).blk t).view.emb j)
  obtain ⟨p, q, rfl⟩ : ∃ (p : Fin 10000) (q : Fin 64), j = ix2 p q := ⟨j 0, j 1, eq_ix2 j⟩
  obtain ⟨e00, e01, e10, e11, e20, e21⟩ := block_indices t
  have ht := point_lt t
  have hrow : t.val * 10000 + p.val < 100000 := by have := p.isLt; omega
  -- entry (p, q) of the block is entry (10000 t + p, q) of the array
  have e2 : ((cfg0.win 2).blk t).view.emb (ix2 p q) = ix2 (⟨t.val * 10000 + p.val, hrow⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 64 + 1 * q.val = q.val; omega
  refine (stored_apply (iblk0 V c 0 t) (iblk0 V c 1 t) p q).trans ?_
  refine Eq.trans ?_ (congrArg (Cert.Gcn.prod (V c main_arg0) (V c main_arg2)) e2).symm
  rw [Cert.Gcn.prod_apply]
  refine Finset.sum_congr rfl fun k _ => ?_
  -- the features' block at (p, k) is the array at (10000 t + p, k)
  have r0 : iblk0 V c 0 t (ix2 p k) = V c main_arg0 (ix2 (⟨t.val * 10000 + p.val, hrow⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  -- the weights' block is the whole matrix
  have r1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [r0, r1]

/-- An index of the array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- Row `r` of the array lies in block `r / 10000`, which is written back: the blocks cover the array. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 10000 < cfg0.N := Nat.lt_of_lt_of_eq (by omega : (i 0).val / 10000 < 10) N_0.symm
  obtain ⟨-, -, -, -, e20, e21⟩ := block_indices ⟨(i 0).val / 10000, hlt⟩
  refine ⟨⟨(i 0).val / 10000, hlt⟩, flush0_2 _, ?_⟩
  rw [mem_block]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    have e : win0_2.index ⟨(i 0).val / 10000, hlt⟩ (0 : Fin 2) = (i 0).val / 10000 := e20
    omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    omega

/-- After the region its result array is the product of the features and the weights as the region finds them. -/
theorem final (c : Dev nD) : (dat0 V c).arrAt 2 cfg0.N = Cert.Gcn.prod (V c main_arg0) (V c main_arg2) :=
  (dat0 V c).arrAt_eq_of_cover 2 _ (fun t _ => flushed_eq V c t) covered

end Cert.KernelIdeal.Xw

end
-- ==== Proof.Region1.lean ====
/-
  The second kernel region: the array it leaves is the aggregated messages with the bias row added to every row.

  The region walks the 100000 rows in ten blocks of 10000. At block `t` its body loads the bias row `[1, 64]`,
  repeats it down the 10000 rows of the block, loads rows `10000 t … 10000 t + 9999` of the aggregated messages, adds
  the two and stores the 10000 × 64 result. So entry `(p, q)` of block `t` is `agg (10000 t + p, q) + b2 (0, q)`:
  block `t` of the sum. The ten blocks tile the rows, so after the region the whole array is that sum.
-/
import proofs.«156363_j82300163326464_1_alg».proof.Proof.Gen.KernelIdeal.Frame
import proofs.«156363_j82300163326464_1_alg».proof.Proof.Product
import Idealize.ShloMosaic.Lib.Pipeline.Value

set_option maxRecDepth 16384

noncomputable section

open scoped BigOperators

namespace Cert.KernelIdeal.Bias

open Cert.KernelIdeal Cert.KernelIdeal.Gen Idealize.ShloMosaic Idealize.ShloMosaic.TcCoe Idealize.ShloMosaic.ValueIdx Idealize.SL.Sem
open Idealize.ShloMosaic.Pipeline (Dat Cfg Window)

-- the buffer contents the region is entered from
variable (V : (c : Dev nD) → (b : Ref sig .tc) → Buf (Elt Ideal) ((c : Thread nD τ).loc b))

theorem origin_zero : (![0, 0] : Fin 2 → Nat) = fun _ => 0 := funext fun a => by fin_cases a <;> rfl

/-- The body's stored value at entry `(p, q)`: the casts to the same shape are the identity, the bias row is read at
    column `q` whatever the row, and the sum is the sum of extended reals. -/
theorem stored_apply (b2 : Vec Ideal S1x64 .f32) (a : Vec Ideal S10000x64 .f32) (p : Fin 10000) (q : Fin 64) :
    k1_pay1 (F := Ideal) b2 a (ix2 p q) = a (ix2 p q) + b2 (ix2 (0 : Fin 1) q) := by
  unfold k1_pay1
  simp only [shapeCast_self]
  show a (ix2 p q) + broadcastTo S10000x64 b2 broadcasts_S1x64_S10000x64 (ix2 p q) = _
  rw [broadcastTo_apply b2 broadcasts_S1x64_S10000x64 (ix2 p q) (ix2 (0 : Fin 1) q)
    (fun d => by match d with | ⟨0, _⟩ => rfl | ⟨1, _⟩ => rfl)]

/-- The block indices over the grid: the messages' and the result's row block is the point, the bias row's block is fixed. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 10 := Nat.lt_of_lt_of_eq t.isLt N_1

/-- What point `t` writes back is block `t` of the messages plus the bias row, of the arrays the region finds. -/
theorem flushed_eq (c : Dev nD) (t : Fin cfg1.N) :
    (dat1 V c).flushed 2 t = ((cfg1.win 2).blk t).view.read (Elt Ideal) (Cert.Gcn.addBias (V c main_v43) (V c main_v44)) := by
  show (cfg1.win 2).cut (grid1.coords t) ((dat1 V c).after 2 t) = _
  rw [after1_2]
  unfold out1_2
  rw [View.canon_unit_zero origin_zero]
  simp only [View.ld_unit_zero (S := S10000x64) origin_zero, View.ld_unit_zero (S := S1x64) origin_zero]
  funext j
  show k1_pay1 (F := Ideal) (iblk1 V c 1 t) (iblk1 V c 0 t) j
    = Cert.Gcn.addBias (V c main_v43) (V c main_v44) (((cfg1.win 2).blk t).view.emb j)
  obtain ⟨p, q, rfl⟩ : ∃ (p : Fin 10000) (q : Fin 64), j = ix2 p q := ⟨j 0, j 1, eq_ix2 j⟩
  obtain ⟨e00, e01, e10, e11, e20, e21⟩ := block_indices t
  have ht := point_lt t
  have hrow : t.val * 10000 + p.val < 100000 := by have := p.isLt; omega
  -- entry (p, q) of the block is entry (10000 t + p, q) of the array
  have e2 : ((cfg1.win 2).blk t).view.emb (ix2 p q) = ix2 (⟨t.val * 10000 + p.val, hrow⟩ : Fin 100000) q := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  refine (stored_apply (iblk1 V c 1 t) (iblk1 V c 0 t) p q).trans ?_
  refine Eq.trans ?_ (congrArg (Cert.Gcn.addBias (V c main_v43) (V c main_v44)) e2).symm
  rw [Cert.Gcn.addBias_apply]
  -- the messages' block at (p, q) is the array at (10000 t + p, q)
  have r0 : iblk1 V c 0 t (ix2 p q) = V c main_v43 (ix2 (⟨t.val * 10000 + p.val, hrow⟩ : Fin 100000) q) := by
    show V c main_v43 (((cfg1.win 0).blk t).view.emb (ix2 p q)) = _
    refine congrArg (V c main_v43) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  -- the bias row's block is the whole row
  have r1 : iblk1 V c 1 t (ix2 (0 : Fin 1) q) = V c main_v44 (ix2 (0 : Fin 1) q) := by
    show V c main_v44 (((cfg1.win 1).blk t).view.emb (ix2 (0 : Fin 1) q)) = _
    refine congrArg (V c main_v44) ?_
    funext a; apply Fin.ext
    match a with
    | ⟨0, _⟩ => show win1_1.index t (0 : Fin 2) * 1 + 1 * 0 = 0; omega
    | ⟨1, _⟩ => show win1_1.index t (1 : Fin 2) * 64 + 1 * q.val = q.val; omega
  rw [r0, r1]

/-- An index of the array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- Row `r` of the array lies in block `r / 10000`, which is written back: the blocks cover the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hlt : (i 0).val / 10000 < cfg1.N := Nat.lt_of_lt_of_eq (by omega : (i 0).val / 10000 < 10) N_1.symm
  obtain ⟨-, -, -, -, e20, e21⟩ := block_indices ⟨(i 0).val / 10000, hlt⟩
  refine ⟨⟨(i 0).val / 10000, hlt⟩, flush1_2 _, ?_⟩
  rw [mem_block]
  intro a
  match a with
  | ⟨0, _⟩ =>
    show win1_2.index ⟨(i 0).val / 10000, hlt⟩ (0 : Fin 2) * 10000 ≤ (i 0).val
      ∧ (i 0).val < win1_2.index ⟨(i 0).val / 10000, hlt⟩ (0 : Fin 2) * 10000 + 10000
    have e : win1_2.index ⟨(i 0).val / 10000, hlt⟩ (0 : Fin 2) = (i 0).val / 10000 := e20
    omega
  | ⟨1, _⟩ =>
    show win1_2.index ⟨(i 0).val / 10000, hlt⟩ (1 : Fin 2) * 64 ≤ (i 1).val
      ∧ (i 1).val < win1_2.index ⟨(i 0).val / 10000, hlt⟩ (1 : Fin 2) * 64 + 64
    omega

/-- After the region its result array is the messages plus the bias row, of the arrays the region finds. -/
theorem final (c : Dev nD) : (dat1 V c).arrAt 2 cfg1.N = Cert.Gcn.addBias (V c main_v43) (V c main_v44) :=
  (dat1 V c).arrAt_eq_of_cover 2 _ (fun t _ => flushed_eq V c t) covered

end Cert.KernelIdeal.Bias

end
-- ==== Proof.HostChain.lean ====
/-
  The host operations of the kernel program, read against the reference's own stages.

  Around its two kernel regions the kernel program runs the same host operations as the reference, on the same
  arguments: it appends a self-loop to the edge list (sources and targets `[1100000]`), counts each node's incoming
  edges by a scatter-add of ones, takes `1 / sqrt` of the positive counts, multiplies the factors of an edge's two
  ends, and, after the first region, gathers the rows of its result at the edges' sources, scales row `e` by the
  factor of edge `e` and scatter-adds the rows into the targets' rows. Every one of these values is the same term of the
  edge list on both sides, so they are named here by the reference's stage functions, and the last stretch is ONE
  function `agg` of the first region's result and the edge list, which is never opened. The bias is reshaped from
  `[64]` to `[1, 64]` for the second region.

  The lemmas are stated for any float values: the terms on the two sides are then compared as they are printed.
-/
import proofs.«156363_j82300163326464_1_alg».proof.Proof.Gen.KernelIdeal.Frame
import proofs.«156363_j82300163326464_1_alg».proof.Proof.RefRead

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The messages aggregated at their targets, as a function of the transformed features `xw` and the edge list `x1`:
    the rows of `xw` gathered at the sources, each scaled by its edge's factor, scatter-added into the targets' rows of a
    zero table. The sources, the targets and the factors are the reference's stages of the edge list. -/
def agg (xw : (⟨Cert.ReferenceIdeal.S100000x64, .f32⟩ : BufTy).Contents (Elt F))
    (x1 : (⟨Cert.ReferenceIdeal.S2x1000000, .i32⟩ : BufTy).Contents (Elt F)) :
    (⟨Cert.ReferenceIdeal.S100000x64, .f32⟩ : BufTy).Contents (Elt F) :=
  Host.scatterAdd Cert.ReferenceIdeal.scatter_S100000x64_S1100000x1_S1100000x64_1_0_0_1
    (Cert.ReferenceIdeal.Read.val_main_v41 (F := F)) (Cert.ReferenceIdeal.Read.val_main_v42 (F := F) x1)
    (mulf (Host.gather Cert.ReferenceIdeal.gather_S100000x64_S1100000x1_S1100000x64_1_0_n_n_0_1_164 xw
        (Cert.ReferenceIdeal.Read.val_main_v36 (F := F) x1))
      (Cert.ReferenceIdeal.Read.val_main_v39 (F := F) x1))

/-- The reference's aggregated messages are `agg` of its own product. -/
theorem ref_agg (x0 : (⟨Cert.ReferenceIdeal.S100000x64, .f32⟩ : BufTy).Contents (Elt F))
    (x1 : (⟨Cert.ReferenceIdeal.S2x1000000, .i32⟩ : BufTy).Contents (Elt F))
    (x2 : (⟨Cert.ReferenceIdeal.S64x64, .f32⟩ : BufTy).Contents (Elt F)) :
    Cert.ReferenceIdeal.Read.val_main_v43 (F := F) x0 x1 x2 = agg (Cert.ReferenceIdeal.Read.val_main_v30 (F := F) x0 x2) x1 := rfl

variable (m : (ℓ : Loc nD τ sig) → Buf (Elt F) ℓ) (ρ : Dev nD → PrngReg)

/-! ## Before the first region -/

/-- The features reach the first region as launched: no host operation writes them. -/
theorem entry_arg0 (c : Dev nD) : W3 m ρ c (Proc.devRef .tc main_arg0) = m ((c : Thread nD τ).loc main_arg0) := by
  dsimp only [W3, W2, W1, W0, hostOps0, hostOps0_1, hostOps0_2]
  after_results_simp <;> rfl

/-- The weights reach the first region as launched. -/
theorem entry_arg2 (c : Dev nD) : W3 m ρ c (Proc.devRef .tc main_arg2) = m ((c : Thread nD τ).loc main_arg2) := by
  dsimp only [W3, W2, W1, W0, hostOps0, hostOps0_1, hostOps0_2]
  after_results_simp <;> rfl

/-- The bias reaches the first region as launched. -/
theorem entry_arg3 (c : Dev nD) : W3 m ρ c (Proc.devRef .tc main_arg3) = m ((c : Thread nD τ).loc main_arg3) := by
  dsimp only [W3, W2, W1, W0, hostOps0, hostOps0_1, hostOps0_2]
  after_results_simp <;> rfl

/-- The edges' sources, with the self-loops appended: the reference's stage of the edge list. -/
theorem entry_src (c : Dev nD) : W3 m ρ c (Proc.devRef .tc main_v3)
    = Cert.ReferenceIdeal.Read.val_main_v3 (F := F) (m ((c : Thread nD τ).loc main_arg1)) := by
  dsimp only [W3, W2, W1, W0, hostOps0, hostOps0_1, hostOps0_2]
  after_results_simp <;> rfl

/-- The edges' targets, with the self-loops appended. -/
theorem entry_dst (c : Dev nD) : W3 m ρ c (Proc.devRef .tc main_v6)
    = Cert.ReferenceIdeal.Read.val_main_v6 (F := F) (m ((c : Thread nD τ).loc main_arg1)) := by
  dsimp only [W3, W2, W1, W0, hostOps0, hostOps0_1, hostOps0_2]
  after_results_simp <;> rfl

set_option maxHeartbeats 1000000 in
/-- The edges' factors: the product of `1 / sqrt (in-degree)` at the two ends, zero where a degree is not positive. -/
theorem entry_norm (c : Dev nD) : W3 m ρ c (Proc.devRef .tc main_v29)
    = Cert.ReferenceIdeal.Read.val_main_v29 (F := F) (m ((c : Thread nD τ).loc main_arg1)) := by
  dsimp only [W3, W2, W1, W0, hostOps0, hostOps0_1, hostOps0_2]
  after_results_simp <;> rfl

/-! ## Across the first region: it writes its result array only -/

theorem mid_src (c : Dev nD) : W4 m ρ c (Proc.devRef .tc main_v3)
    = Cert.ReferenceIdeal.Read.val_main_v3 (F := F) (m ((c : Thread nD τ).loc main_arg1)) :=
  (W4_of_ne m ρ c main_v3 (by decide)).trans (entry_src m ρ c)

theorem mid_dst (c : Dev nD) : W4 m ρ c (Proc.devRef .tc main_v6)
    = Cert.ReferenceIdeal.Read.val_main_v6 (F := F) (m ((c : Thread nD τ).loc main_arg1)) :=
  (W4_of_ne m ρ c main_v6 (by decide)).trans (entry_dst m ρ c)

theorem mid_norm (c : Dev nD) : W4 m ρ c (Proc.devRef .tc main_v29)
    = Cert.ReferenceIdeal.Read.val_main_v29 (F := F) (m ((c : Thread nD τ).loc main_arg1)) :=
  (W4_of_ne m ρ c main_v29 (by decide)).trans (entry_norm m ρ c)

theorem mid_arg3 (c : Dev nD) : W4 m ρ c (Proc.devRef .tc main_arg3) = m ((c : Thread nD τ).loc main_arg3) :=
  (W4_of_ne m ρ c main_arg3 (by decide)).trans (entry_arg3 m ρ c)

/-! ## Between the regions -/

set_option maxHeartbeats 1000000 in
/-- The second region finds the aggregated messages: `agg` of the first region's result and the edge list. -/
theorem exit_agg (c : Dev nD) : W5 m ρ c (Proc.devRef .tc main_v43)
    = agg (W4 m ρ c (Proc.devRef .tc main_v30)) (m ((c : Thread nD τ).loc main_arg1)) := by
  dsimp only [W5, hostOps1]
  after_results_simp
  rw [mid_src, mid_dst, mid_norm]
  rfl

/-- The second region finds the bias as a row `[1, 64]`. -/
theorem exit_bias (c : Dev nD) : W5 m ρ c (Proc.devRef .tc main_v44)
    = shapeCast S1x64 (m ((c : Thread nD τ).loc main_arg3)) shapeCasts_S64_S1x64 := by
  dsimp only [W5, hostOps1]
  after_results_simp
  rw [mid_arg3]
  rfl

end Cert.KernelIdeal.Host

end
-- ==== Proof.Bridge.lean ====
/-
  The two programs compute one function of the four arguments.

  With features `x0 : [100000, 64]`, the edge list `x1 : [2, 1000000]`, weights `x2 : [64, 64]` and bias
  `x3 : [64]`, both programs end holding

      layer x0 x1 x2 x3 (p, q) = agg (x0 · x2) x1 (p, q) + x3 q ,

  where `x0 · x2` is the product of the features with the weights and `agg` gathers its rows at the edges' sources,
  scales them by the edges' factors and adds them up at the edges' targets (the self-loops included).

  The kernel program computes the product in its first region, block of rows by block of rows, through operands changed
  to a narrower format (the identity at the ideal values) into a zero accumulator; the reference computes it by one
  plain contraction. Both are the same sum over the 64 contracted positions. The kernel program then adds the bias in its
  second region, the bias reshaped to a row `[1, 64]` and repeated down each block; the reference repeats the bias down
  the whole array and adds. Both read the bias at the entry's column. The aggregation between the two is the same host
  operations on both sides and is carried as one function, never opened. No step needs the inputs to be finite: the sums
  and the one addition are taken as they stand in the extended reals.
-/
import proofs.«156363_j82300163326464_1_alg».proof.Proof.KernelRun
import proofs.«156363_j82300163326464_1_alg».proof.Proof.Region0
import proofs.«156363_j82300163326464_1_alg».proof.Proof.Region1
import proofs.«156363_j82300163326464_1_alg».proof.Proof.HostChain
import proofs.«156363_j82300163326464_1_alg».proof.Proof.RefRead
import proofs.«156363_j82300163326464_1_alg».proof.Proof.Product

set_option maxRecDepth 16384

noncomputable section

open scoped BigOperators

namespace Cert.Gcn

open Idealize.ShloMosaic Idealize.ShloMosaic.TcCoe Idealize.SL.Sem Idealize.ShloMosaic.ValueIdx

/-- The layer's output as one function of the four argument arrays. -/
def layer (x0 : (⟨Cert.ReferenceIdeal.S100000x64, .f32⟩ : BufTy).Contents (Elt Ideal))
    (x1 : (⟨Cert.ReferenceIdeal.S2x1000000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal)) :
    (⟨2, ![100000, 64]⟩ : Shape).Idx → EReal :=
  addBias (Cert.KernelIdeal.Host.agg (F := Ideal) (prod x0 x2) x1)
    (shapeCast Cert.KernelIdeal.S1x64 x3 Cert.KernelIdeal.Facts₀.shapeCasts_S64_S1x64)

/-! ## The kernel program's result -/

section Kernel

open Cert.KernelIdeal Cert.KernelIdeal.Gen

variable (m : (ℓ : Loc nD τ sig) → Buf (Elt Ideal) ℓ) (ρ : Dev nD → PrngReg)

/-- After the first region its result array is the product of the features and the weights as launched. -/
theorem first_region (c : Dev nD) : W4 m ρ c (Proc.devRef .tc main_v30)
    = prod (m ((c : Thread nD τ).loc main_arg0)) (m ((c : Thread nD τ).loc main_arg2)) := by
  refine (W4_arr m ρ c 2).trans ?_
  rw [Cert.KernelIdeal.Xw.final (V3 m ρ) c]
  show prod (W3 m ρ c (Proc.devRef .tc main_arg0)) (W3 m ρ c (Proc.devRef .tc main_arg2)) = _
  rw [Cert.KernelIdeal.Host.entry_arg0, Cert.KernelIdeal.Host.entry_arg2]

/-- What the last boundary holds at the result array: the layer's function of the arguments as launched. -/
theorem kernel_result (c : Dev nD) : W6 m ρ c (Proc.devRef .tc main_v45)
    = layer (m ((c : Thread nD τ).loc main_arg0)) (m ((c : Thread nD τ).loc main_arg1))
        (m ((c : Thread nD τ).loc main_arg2)) (m ((c : Thread nD τ).loc main_arg3)) := by
  refine (W6_arr m ρ c 2).trans ?_
  rw [Cert.KernelIdeal.Bias.final (V5 m ρ) c]
  show addBias (W5 m ρ c (Proc.devRef .tc main_v43)) (W5 m ρ c (Proc.devRef .tc main_v44)) = _
  rw [Cert.KernelIdeal.Host.exit_agg, Cert.KernelIdeal.Host.exit_bias, first_region]
  rfl

end Kernel

/-! ## The reference's result -/

section Reference

open Cert.ReferenceIdeal Cert.ReferenceIdeal.Read

/-- The reference's plain contraction is the product. -/
theorem ref_product (x0 : (⟨S100000x64, .f32⟩ : BufTy).Contents (Elt Ideal)) (x2 : (⟨S64x64, .f32⟩ : BufTy).Contents (Elt Ideal)) :
    val_main_v30 (F := Ideal) x0 x2 = prod x0 x2 := by
  unfold val_main_v30
  simp only [Host.dotGeneral]
  exact dotGeneral_plain_eq_prod none _ x0 x2

/-- The reference's last stage is the layer's function of its arguments. -/
theorem ref_result (x0 : (⟨S100000x64, .f32⟩ : BufTy).Contents (Elt Ideal)) (x1 : (⟨S2x1000000, .i32⟩ : BufTy).Contents (Elt Ideal))
    (x2 : (⟨S64x64, .f32⟩ : BufTy).Contents (Elt Ideal)) (x3 : (⟨S64, .f32⟩ : BufTy).Contents (Elt Ideal)) :
    val_main_v46 (F := Ideal) x0 x1 x2 x3 = layer x0 x1 x2 x3 := by
  funext i
  obtain ⟨p, q, rfl⟩ : ∃ (p : Fin 100000) (q : Fin 64), i = ix2 p q := ⟨i 0, i 1, eq_ix2 i⟩
  rw [val_main_v46_apply, val_main_v45_apply, val_main_v44_apply, Cert.KernelIdeal.Host.ref_agg, ref_product]
  unfold layer
  rw [addBias_apply, Ideal.addf_def]
  congr 1
  -- the bias read at the entry's column, through either arrangement
  refine Eq.trans ?_ (shapeCast_addUnit_apply ![64] x3 Cert.KernelIdeal.Facts₀.shapeCasts_S64_S1x64 (ix2 (0 : Fin 1) q)).symm
  refine congrArg x3 (funext fun a => ?_)
  match a with
  | ⟨0, _⟩ => rfl

end Reference

end Cert.Gcn

end
-- ==== Proof.lean ====
/-
  The certificate of a graph-convolution layer: a Pallas kernel program against its jnp reference, equal over the
  extended reals.

  Both programs compute, for features `x : [100000, 64]`, an edge list `[2, 1000000]`, weights `W : [64, 64]` and a
  bias `b : [64]`,

      out (p, q) = agg (x · W) (p, q) + b q ,

  where `agg` adds self-loops to the edges, normalises each edge by `1 / sqrt` of the in-degrees of its two ends,
  gathers the rows of `x · W` at the edges' sources and adds them up at the edges' targets. The kernel program runs the
  product and the bias addition as two kernel regions over ten blocks of 10000 rows and everything between as host
  operations; the reference runs everything as host operations.

  * The three frames: each program terminates, nothing faulting, its argument arrays unchanged. The two kernel
    programs' are their generated frames; the reference's is its run with the result dropped.
  * The idealised kernel program is the kernel program's own text read at the ideal values: no rewrite was applied.
  * Equal results: the kernel program's result array after its run is `layer` of its arguments (its two regions read
    block by block, the host operations between them carried as one function), and so is the reference's last stage
    (Proof/Bridge.lean).
-/
import proofs.«156363_j82300163326464_1_alg».proof.Defs
import proofs.«156363_j82300163326464_1_alg».proof.Proof.Gen.Kernel
import proofs.«156363_j82300163326464_1_alg».proof.Proof.Gen.Kernel.Skeleton
import proofs.«156363_j82300163326464_1_alg».proof.Proof.Gen.Kernel.Launch
import proofs.«156363_j82300163326464_1_alg».proof.Proof.Gen.Kernel.Points
import proofs.«156363_j82300163326464_1_alg».proof.Proof.Gen.Kernel.Frame
import proofs.«156363_j82300163326464_1_alg».proof.Proof.Gen.KernelIdeal
import proofs.«156363_j82300163326464_1_alg».proof.Proof.Gen.KernelIdeal.Skeleton
import proofs.«156363_j82300163326464_1_alg».proof.Proof.Gen.KernelIdeal.Launch
import proofs.«156363_j82300163326464_1_alg».proof.Proof.Gen.KernelIdeal.Points
import proofs.«156363_j82300163326464_1_alg».proof.Proof.Gen.KernelIdeal.Frame
import proofs.«156363_j82300163326464_1_alg».proof.Proof.Gen.ReferenceIdeal
import proofs.«156363_j82300163326464_1_alg».proof.Proof.Gen.Pre_finite_inputs
import proofs.«156363_j82300163326464_1_alg».proof.Proof.RefRun
import proofs.«156363_j82300163326464_1_alg».proof.Proof.RefRead
import proofs.«156363_j82300163326464_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's function of those arguments. -/
theorem algebraic : Cert.algebraic_KernelIdeal_ReferenceIdeal := by
  intro m ρ m' ρ' _ hagree
  refine ⟨fun c => Cert.Gcn.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.Gcn.kernel_result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v46_eq, (hagree c).1, (hagree c).2.1, (hagree c).2.2.1, (hagree c).2.2.2]
    exact Cert.Gcn.ref_result _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
